-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S128x32000 : Shape := ⟨2, ![128, 32000]⟩
abbrev S128 : Shape := ⟨1, ![128]⟩
abbrev S_ : Shape := ⟨0, ![]⟩

class Facts : Prop where
  bcast_S_S128x32000 : S_.BroadcastsInDim S128x32000 (![] : Fin 0 → Fin S128x32000.rank)
  reducesTo_S128x32000_S_d0_1 : S128x32000.ReducesTo [0, 1] S_
  h_S_ : 0 < S_.numel
  bcast_S_S128 : S_.BroadcastsInDim S128 (![] : Fin 0 → Fin S128.rank)
  reducesTo_S128_S_d0 : S128.ReducesTo [0] S_
  bcast_S_S64x4096 : S_.BroadcastsInDim S64x4096 (![] : Fin 0 → Fin S64x4096.rank)
  reducesTo_S64x4096_S_d0_1 : S64x4096.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S64x4096 32) (main_arg1 : FVec F S128x32000 .f32) (main_arg2 : FVec F S128 .f32) : IVec S_ 1 :=
  let main_v0 : FVec F S128x32000 .f32 := Host.absf main_arg1
  let main_cst : FVec F S_ .f32 := constant S_ .f32 0x7F800000#32
  let main_v1 : FVec F S128x32000 .f32 := broadcastInDim S128x32000 ![] bcast_S_S128x32000 main_cst
  let main_v2 : IVec S128x32000 1 := cmpf .olt main_v0 main_v1
  let main_c : IVec S_ 1 := constantI S_ 1 1#1
  let main_v3 : IVec S_ 1 := (fun x v => Host.reduce IntOp.andi x v reducesTo_S128x32000_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_c_2 : IVec S_ 32 := constantI S_ 32 0#32
  let main_v9 : IVec S64x4096 32 := broadcastInDim S64x4096 ![] bcast_S_S64x4096 main_c_2
  let main_v10 : IVec S64x4096 1 := cmpi .sge main_arg0 main_v9
  let main_c_3 : IVec S_ 1 := constantI S_ 1 1#1
  let main_v11 : IVec S_ 1 := (fun x v => Host.reduce IntOp.andi x v reducesTo_S64x4096_S_d0_1 h_S_) main_v10 main_c_3
  let main_v12 : IVec S_ 1 := andi main_v8 main_v11
  let main_c_4 : IVec S_ 32 := constantI S_ 32 32000#32
  let main_v13 : IVec S64x4096 32 := broadcastInDim S64x4096 ![] bcast_S_S64x4096 main_c_4
  let main_v14 : IVec S64x4096 1 := cmpi .slt main_arg0 main_v13
  let main_c_5 : IVec S_ 1 := constantI S_ 1 1#1
  let main_v15 : IVec S_ 1 := (fun x v => Host.reduce IntOp.andi x v reducesTo_S64x4096_S_d0_1 h_S_) main_v14 main_c_5
  fn_part1 (F := F) main_v12 main_v15
-- ==== Kernel.lean ====
abbrev S64x4096 : Shape := ⟨2, ![64, 4096]⟩
abbrev S128x32000 : Shape := ⟨2, ![128, 32000]⟩
abbrev S128 : Shape := ⟨1, ![128]⟩
abbrev S262144x1 : Shape := ⟨2, ![262144, 1]⟩
abbrev S32000x128 : Shape := ⟨2, ![32000, 128]⟩
abbrev S262144x128 : Shape := ⟨2, ![262144, 128]⟩
abbrev S512x1 : Shape := ⟨2, ![512, 1]⟩
abbrev S3200x128 : Shape := ⟨2, ![3200, 128]⟩
abbrev S512x128 : Shape := ⟨2, ![512, 128]⟩
abbrev S1x3200 : Shape := ⟨2, ![1, 3200]⟩
abbrev S512x3200 : Shape := ⟨2, ![512, 3200]⟩
abbrev S1x128 : Shape := ⟨2, ![1, 128]⟩
abbrev S64x4096x128 : Shape := ⟨3, ![64, 4096, 128]⟩

abbrev nBuf : Space → Nat
  | .hbm => 8
  | .vmem => 8
  | .smem => 0
  | _ => 0

abbrev bufTy : (tb : Table) → Fin (tcTables nBuf tb) → BufTy
  | .hbm, ⟨0, _⟩ => ⟨S64x4096, .i32⟩
  | .hbm, ⟨1, _⟩ => ⟨S128x32000, .f32⟩
  | .hbm, ⟨2, _⟩ => ⟨S128, .f32⟩
  | .hbm, ⟨3, _⟩ => ⟨S262144x1, .i32⟩
  | .hbm, ⟨4, _⟩ => ⟨S32000x128, .f32⟩
  | .hbm, ⟨5, _⟩ => ⟨S32000x128, .bf16⟩
  | .hbm, ⟨6, _⟩ => ⟨S262144x128, .f32⟩
  | .hbm, ⟨7, _⟩ => ⟨S64x4096x128, .f32⟩
  | .local _ .vmem, ⟨0, _⟩ => ⟨S512x1, .i32⟩
  | .local _ .vmem, ⟨1, _⟩ => ⟨S512x1, .i32⟩
  | .local _ .vmem, ⟨2, _⟩ => ⟨S3200x128, .bf16⟩
  | .local _ .vmem, ⟨3, _⟩ => ⟨S3200x128, .bf16⟩
  | .local _ .vmem, ⟨4, _⟩ => ⟨S128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S64x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![512, 10], ![false, false]⟩

def k0_cond2 (i : grid0.Coords) : BitVec 1 :=
  let arg1 : BitVec 32 := BitVec.ofNat 32 (i 1).val
  let c9_i32 : BitVec 32 := 9#32
  let v23 : BitVec 1 := Scalar.cmpi .eq arg1 c9_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64x4096_S262144x1 : S64x4096.ShapeCasts S262144x1
  transposes_S128x32000_S32000x128_1_0 : S128x32000.Transposes [1, 0] S32000x128
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S1x3200_d1_w32 : S1x3200.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x3200 : S512x1.Broadcasts S512x3200
  broadcasts_S1x3200_S512x3200 : S1x3200.Broadcasts S512x3200
  natLt_1_32 : 1 < 32
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  shapeCasts_S262144x128_S64x4096x128 : S262144x128.ShapeCasts S64x4096x128
  dot_S512x3200_S3200x128_S512x128_1_0_0_1_n_n_wf : DotDims.WF S512x3200 S3200x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S262144x1.size a
  hwx0_0 : ∀ i : grid0.Coords, EltTy.bits .i32 = 32 ∨ (Rect.block (s := S262144x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S32000x128.size a
  hwx0_1 : ∀ i : grid0.Coords, EltTy.bits .bf16 = 32 ∨ (Rect.block (s := S32000x128) S3200x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S262144x128.size a
  hwx0_3 : ∀ i : grid0.Coords, EltTy.bits .f32 = 32 ∨ (Rect.block (s := S262144x128) S512x128.size (cc0_transform_3 i) (hinb0_3 i)).WholeWords (EltTy.packing .f32)

variable [Facts₀]

def dot_S512x3200_S3200x128_S512x128_1_0_0_1_n_n : DotDims S512x3200 S3200x128 S512x128 where
  lhsContracting := [1]
  rhsContracting := [0]
  lhsNonContracting := [0]
  rhsNonContracting := [1]
  lhsBatch := []
  rhsBatch := []
  wf := dot_S512x3200_S3200x128_S512x128_1_0_0_1_n_n_wf

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x4096 : Shape := ⟨2, ![64, 4096]⟩
abbrev S128x32000 : Shape := ⟨2, ![128, 32000]⟩
abbrev S128 : Shape := ⟨1, ![128]⟩
abbrev S32000x128 : Shape := ⟨2, ![32000, 128]⟩
abbrev S_ : Shape := ⟨0, ![]⟩
abbrev S64x4096x1 : Shape := ⟨3, ![64, 4096, 1]⟩
abbrev S1 : Shape := ⟨1, ![1]⟩
abbrev S1x1x1 : Shape := ⟨3, ![1, 1, 1]⟩
abbrev S64x4096x128 : Shape := ⟨3, ![64, 4096, 128]⟩
abbrev S1x1x128 : Shape := ⟨3, ![1, 1, 128]⟩

abbrev nBuf : Space → Nat
  | .hbm => 30
  | .vmem => 0
  | .smem => 0
  | _ => 0

abbrev bufTy : (tb : Table) → Fin (tcTables nBuf tb) → BufTy
  | .hbm, ⟨0, _⟩ => ⟨S64x4096, .i32⟩
  | .hbm, ⟨1, _⟩ => ⟨S128x32000, .f32⟩
  | .hbm, ⟨2, _⟩ => ⟨S128, .f32⟩
  | .hbm, ⟨3, _⟩ => ⟨S32000x128, .f32⟩
  | .hbm, ⟨4, _⟩ => ⟨S_, .i32⟩
  | .hbm, ⟨5, _⟩ => ⟨S64x4096, .i32⟩
  | .hbm, ⟨6, _⟩ => ⟨S64x4096, .i1⟩
  | .hbm, ⟨7, _⟩ => ⟨S_, .i32⟩
  | .hbm, ⟨8, _⟩ => ⟨S64x4096, .i32⟩
  | .hbm, ⟨9, _⟩ => ⟨S64x4096, .i32⟩
  | .hbm, ⟨10, _⟩ => ⟨S64x4096, .i32⟩
  | .hbm, ⟨11, _⟩ => ⟨S64x4096x1, .i32⟩
  | .hbm, ⟨12, _⟩ => ⟨S1, .i32⟩
  | .hbm, ⟨13, _⟩ => ⟨S_, .i32⟩
  | .hbm, ⟨14, _⟩ => ⟨S64x4096x1, .i32⟩
  | .hbm, ⟨15, _⟩ => ⟨S64x4096x1, .i1⟩
  | .hbm, ⟨16, _⟩ => ⟨S1x1x1, .i32⟩
  | .hbm, ⟨17, _⟩ => ⟨S64x4096x1, .i32⟩
  | .hbm, ⟨18, _⟩ => ⟨S64x4096x1, .i1⟩
  | .hbm, ⟨19, _⟩ => ⟨S64x4096x1, .i1⟩
  | .hbm, ⟨20, _⟩ => ⟨S_, .i1⟩
  | .hbm, ⟨21, _⟩ => ⟨S64x4096, .i1⟩
  | .hbm, ⟨22, _⟩ => ⟨S64x4096x128, .f32⟩
  | .hbm, ⟨23, _⟩ => ⟨S64x4096x128, .i1⟩
  | .hbm, ⟨24, _⟩ => ⟨S_, .f32⟩
  | .hbm, ⟨25, _⟩ => ⟨S64x4096x128, .f32⟩
  | .hbm, ⟨26, _⟩ => ⟨S64x4096x128, .f32⟩
  | .hbm, ⟨27, _⟩ => ⟨S1x1x128, .f32⟩
  | .hbm, ⟨28, _⟩ => ⟨S64x4096x128, .f32⟩
  | .hbm, ⟨29, _⟩ => ⟨S64x4096x128, .f32⟩
  | _, _ => ⟨S64x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩

abbrev nD : Nat := 1
abbrev τ : Topo := Topo.v7x

variable {F : FTy → Type} [FloatOps F]

class Facts₀ : Prop where
  transposes_S128x32000_S32000x128_1_0 : S128x32000.Transposes [1, 0] S32000x128
  bcast_S_S64x4096 : S_.BroadcastsInDim S64x4096 (![] : Fin 0 → Fin S64x4096.rank)
  bcast_S64x4096_S64x4096x1_0_1 : S64x4096.BroadcastsInDim S64x4096x1 (![0, 1] : Fin 2 → Fin S64x4096x1.rank)
  bcast_S_S64x4096x1 : S_.BroadcastsInDim S64x4096x1 (![] : Fin 0 → Fin S64x4096x1.rank)
  bcast_S1_S1x1x1_2 : S1.BroadcastsInDim S1x1x1 (![2] : Fin 1 → Fin S1x1x1.rank)
  bcast_S1x1x1_S64x4096x1_0_1_2 : S1x1x1.BroadcastsInDim S64x4096x1 (![0, 1, 2] : Fin 3 → Fin S64x4096x1.rank)
  reducesTo_S64x4096x1_S64x4096_d2 : S64x4096x1.ReducesTo [2] S64x4096
  h_S_ : 0 < S_.numel
  bcast_S64x4096_S64x4096x128_0_1 : S64x4096.BroadcastsInDim S64x4096x128 (![0, 1] : Fin 2 → Fin S64x4096x128.rank)
  bcast_S_S64x4096x128 : S_.BroadcastsInDim S64x4096x128 (![] : Fin 0 → Fin S64x4096x128.rank)
  bcast_S128_S1x1x128_2 : S128.BroadcastsInDim S1x1x128 (![2] : Fin 1 → Fin S1x1x128.rank)
  bcast_S1x1x128_S64x4096x128_0_1_2 : S1x1x128.BroadcastsInDim S64x4096x128 (![0, 1, 2] : Fin 3 → Fin S64x4096x128.rank)
  gather_S32000x128_S64x4096x1_S64x4096x128_2_0_n_n_0_2_1128_wf : GatherDims.WF S32000x128 S64x4096x1 S64x4096x128 [2] [0] [] [0] [] 2 ![1, 128]

variable [Facts₀]

def gather_S32000x128_S64x4096x1_S64x4096x128_2_0_n_n_0_2_1128 : GatherDims S32000x128 S64x4096x1 S64x4096x128 where
  offsetDims := [2]
  collapsedSliceDims := [0]
  operandBatchingDims := []
  startIndicesBatchingDims := []
  startIndexMap := [0]
  indexVectorDim := 2
  sliceSizes := ![1, 128]
  wf := gather_S32000x128_S64x4096x1_S64x4096x128_2_0_n_n_0_2_1128_wf

class Facts : Prop extends Facts₀ where

variable [Facts]
-- ==== Proof.Pieces.lean ====
/-
  What one run of the kernel body leaves behind, as pure terms of what it loaded.

  The body keeps a running sum in a [512, 128] scratch accumulator. On the first class block of a row block it zeroes
  the accumulator and adds that block's one-hot product; on every later class block it adds the block's product to
  what the block before left; on the last class block it also writes accumulator + bias to the output block. So,
  writing `acc` for what the accumulator held on entry, `ids` for the block of class ids, `tbl` for the block of the
  transposed table and `bias` for the bias vector:
    first block:   accumulator := product(ids, 0, tbl)            (the zero block read back, then added to)
    later blocks:  accumulator := product(ids, acc, tbl)
    last block:    output      := (product(ids, acc, tbl)) + bias
  where `product(ids, acc, tbl) = acc + onehot(ids) · tbl` is the body's second store's value and the sum with the
  bias its third.
-/
import proofs.«425042_j78675210928791_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a block stored or loaded whole. -/
theorem hz2 : (![0, 0] : Fin 2 → Nat) = fun _ => 0 := funext fun a => by fin_cases a <;> rfl
theorem hz1 : (![0] : Fin 1 → Nat) = fun _ => 0 := funext fun a => by fin_cases a; rfl

/-- First class block: the accumulator ends at the product over the zero block. -/
theorem scratch_A (c : Dev nD) (i : grid0.Coords) (arg2 : Memref sig .tc .vmem S512x1 .i32) (harg2 : arg2.IsWhole) (arg3 : Memref sig .tc .vmem S3200x128 .bf16) (harg3 : arg3.IsWhole) (arg4 : Memref sig .tc .vmem S128 .f32) (harg4 : arg4.IsWhole) (arg5 : Memref sig .tc .vmem S512x128 .f32) (harg5 : arg5.IsWhole) (arg6 : Memref sig .tc .vmem S512x128 .f32) (harg6 : arg6.IsWhole) (hc0 : cond0_0 i) (hc1 : ¬cond0_1 i)
    (x0 : Vec F S512x1 .i32) (x1 : Vec F S3200x128 .bf16) (x2 : Vec F S128 .f32) :
    sout0_A_0 c i arg2 harg2 arg3 harg3 arg4 harg4 arg5 harg5 arg6 harg6 hc0 hc1 x0 x1 x2 = k0_pay2 i x0 k0_pay1 x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x128) hz2, View.readCov_unit_zero (S := S512x128) _ hz2]
  simp only [View.readAt_eq_ld, harg2.read_unread, harg3.read_unread, View.ld_unit_zero (S := S512x1) hz2,
    View.ld_unit_zero (S := S3200x128) hz2]

/-- A middle class block: the accumulator ends at the product over what it held. -/
theorem scratch_B (c : Dev nD) (i : grid0.Coords) (arg2 : Memref sig .tc .vmem S512x1 .i32) (harg2 : arg2.IsWhole) (arg3 : Memref sig .tc .vmem S3200x128 .bf16) (harg3 : arg3.IsWhole) (arg4 : Memref sig .tc .vmem S128 .f32) (harg4 : arg4.IsWhole) (arg5 : Memref sig .tc .vmem S512x128 .f32) (harg5 : arg5.IsWhole) (arg6 : Memref sig .tc .vmem S512x128 .f32) (harg6 : arg6.IsWhole) (hc0 : ¬cond0_0 i) (hc1 : ¬cond0_1 i)
    (x0 : Vec F S512x1 .i32) (x1 : Vec F S3200x128 .bf16) (x2 : Vec F S128 .f32) (xs0 : Vec F S512x128 .f32) :
    sout0_B_0 c i arg2 harg2 arg3 harg3 arg4 harg4 arg5 harg5 arg6 harg6 hc0 hc1 x0 x1 x2 xs0 = k0_pay2 i x0 xs0 x1 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg6.read_unread, View.ld_unit_zero (S := S512x1) hz2,
    View.ld_unit_zero (S := S3200x128) hz2, View.ld_unit_zero (S := S512x128) hz2]

/-- The last class block: the accumulator, as in the middle. -/
theorem scratch_C (c : Dev nD) (i : grid0.Coords) (arg2 : Memref sig .tc .vmem S512x1 .i32) (harg2 : arg2.IsWhole) (arg3 : Memref sig .tc .vmem S3200x128 .bf16) (harg3 : arg3.IsWhole) (arg4 : Memref sig .tc .vmem S128 .f32) (harg4 : arg4.IsWhole) (arg5 : Memref sig .tc .vmem S512x128 .f32) (harg5 : arg5.IsWhole) (arg6 : Memref sig .tc .vmem S512x128 .f32) (harg6 : arg6.IsWhole) (hc0 : ¬cond0_0 i) (hc1 : cond0_1 i)
    (x0 : Vec F S512x1 .i32) (x1 : Vec F S3200x128 .bf16) (x2 : Vec F S128 .f32) (xs0 : Vec F S512x128 .f32) :
    sout0_C_0 c i arg2 harg2 arg3 harg3 arg4 harg4 arg5 harg5 arg6 harg6 hc0 hc1 x0 x1 x2 xs0 = k0_pay2 i x0 xs0 x1 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg6.read_unread, View.ld_unit_zero (S := S512x1) hz2,
    View.ld_unit_zero (S := S3200x128) hz2, View.ld_unit_zero (S := S512x128) hz2]

/-- The last class block: the output block is the accumulator just stored, read back, plus the bias. -/
theorem out_C (c : Dev nD) (i : grid0.Coords) (arg2 : Memref sig .tc .vmem S512x1 .i32) (harg2 : arg2.IsWhole) (arg3 : Memref sig .tc .vmem S3200x128 .bf16) (harg3 : arg3.IsWhole) (arg4 : Memref sig .tc .vmem S128 .f32) (harg4 : arg4.IsWhole) (arg5 : Memref sig .tc .vmem S512x128 .f32) (harg5 : arg5.IsWhole) (arg6 : Memref sig .tc .vmem S512x128 .f32) (harg6 : arg6.IsWhole) (hc0 : ¬cond0_0 i) (hc1 : cond0_1 i)
    (x0 : Vec F S512x1 .i32) (x1 : Vec F S3200x128 .bf16) (x2 : Vec F S128 .f32) (xs0 : Vec F S512x128 .f32) :
    out0_C_3 c i arg2 harg2 arg3 harg3 arg4 harg4 arg5 harg5 arg6 harg6 hc0 hc1 x0 x1 x2 xs0 = k0_pay3 (k0_pay2 i x0 xs0 x1) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.readCov_unit_zero (S := S512x128) _ hz2, View.ld_unit_zero (S := S512x1) hz2,
    View.ld_unit_zero (S := S3200x128) hz2, View.ld_unit_zero (S := S512x128) hz2, View.ld_unit_zero (S := S128) hz1]

end Cert.KernelIdeal.Pieces

end
-- ==== Proof.Blocks.lean ====
/-
  The blocks the kernel body is handed at a grid point, read entry by entry off the arrays its pallas_call was
  launched on.

  The grid is 512 row blocks by 10 class blocks, walked row-major: point `t` is row block `t / 10`, class block
  `t % 10`. At point `t`
    the id block      holds rows   `(t / 10)·512 + p`   (p < 512) of the flat [262144, 1] id array,
    the table block   holds rows   `(t % 10)·3200 + j`  (j < 3200) of the transposed [32000, 128] table,
    the bias block    is the whole bias vector,
  and the output block written back at the last class block covers rows `(t / 10)·512 + p` of the [262144, 128] result.
  `idAt` and `entry` read the two arrays at a natural-number row (with a default past the end, never met), so that
  these facts are plain equations between naturals.
-/
import proofs.«425042_j78675210928791_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

/-- The class id in flat row `r` of the id array. -/
def idAt (X : IVec S262144x1 32) (r : ℕ) : BitVec 32 :=
  if h : r < 262144 then X (ix2 ⟨r, h⟩ (0 : Fin 1)) else 0#32

/-- Entry `(n, e)` of the transposed table: class `n`'s embedding at coordinate `e`; `0` past the last class. -/
def entry (T : FVec Ideal S32000x128 .bf16) (e : Fin 128) (n : ℕ) : EReal :=
  if h : n < 32000 then T (ix2 ⟨n, h⟩ e) else 0

variable (m : (ℓ : Loc nD τ sig) → Buf (Elt Ideal) ℓ)

/-- The three operand arrays as the pallas_call finds them, at their literal types. -/
abbrev idsArr (c : Dev nD) : IVec S262144x1 32 := V m c main_v0
abbrev tblArr (c : Dev nD) : FVec Ideal S32000x128 .bf16 := V m c main_v2
abbrev biasArr (c : Dev nD) : FVec Ideal S128 .f32 := V m c main_arg2

/-- The blocks at a point, at their literal types. -/
abbrev idsBlk (c : Dev nD) (t : Fin cfg0.N) : Vec Ideal S512x1 .i32 := iblk m c 0 t
abbrev tblBlk (c : Dev nD) (t : Fin cfg0.N) : Vec Ideal S3200x128 .bf16 := iblk m c 1 t
abbrev biasBlk (c : Dev nD) (t : Fin cfg0.N) : Vec Ideal S128 .f32 := iblk m c 2 t

/-- The printed index maps and the grid's second coordinate, decided once over the grid. -/
theorem idx_facts : ∀ t : Fin cfg0.N,
    win0_0.index t (0 : Fin 2) = t.val / 10 ∧ win0_0.index t (1 : Fin 2) = 0
    ∧ win0_1.index t (0 : Fin 2) = t.val % 10 ∧ win0_1.index t (1 : Fin 2) = 0
    ∧ win0_2.index t (0 : Fin 1) = 0
    ∧ win0_3.index t (0 : Fin 2) = t.val / 10 ∧ win0_3.index t (1 : Fin 2) = 0
    ∧ (grid0.coords t (1 : Fin 2)).val = t.val % 10 :=
  (by decide +kernel : ∀ t : Fin grid0.N, _)

theorem N_eq : cfg0.N = 5120 := N_0

/-- The id block at point `t` is rows `(t / 10)·512 + p` of the id array. -/
theorem idsBlk_apply (c : Dev nD) (t : Fin cfg0.N) (p : Fin 512) :
    idsBlk m c t (ix2 p (0 : Fin 1)) = idAt (idsArr m c) (t.val / 10 * 512 + p.val) := by
  have hN : t.val < 5120 := lt_of_lt_of_eq t.isLt N_eq
  have hp := p.isLt
  have hr : t.val / 10 * 512 + p.val < 262144 := by omega
  unfold idAt
  rw [dif_pos hr]
  unfold idsBlk iblk
  rw [View.read_apply]
  show V m c main_v0 (((cfg0.win 0).blk t).view.emb (ix2 p (0 : Fin 1))) = V m c main_v0 (ix2 ⟨t.val / 10 * 512 + p.val, hr⟩ (0 : Fin 1))
  obtain ⟨e0, e1, -⟩ := idx_facts t
  refine congrArg _ (funext fun a => Fin.ext ?_)
  match a with
  | ⟨0, _⟩ => show win0_0.index t (0 : Fin 2) * 512 + 1 * p.val = t.val / 10 * 512 + p.val; rw [e0]; omega
  | ⟨1, _⟩ => show win0_0.index t (1 : Fin 2) * 1 + 1 * 0 = 0; rw [e1]

/-- The table block at point `t` is rows `(t % 10)·3200 + j` of the transposed table. -/
theorem tblBlk_apply (c : Dev nD) (t : Fin cfg0.N) (j : Fin 3200) (e : Fin 128) :
    tblBlk m c t (ix2 j e) = entry (tblArr m c) e (t.val % 10 * 3200 + j.val) := by
  have hj := j.isLt
  have hr : t.val % 10 * 3200 + j.val < 32000 := by omega
  unfold entry
  rw [dif_pos hr]
  unfold tblBlk iblk
  rw [View.read_apply]
  show V m c main_v2 (((cfg0.win 1).blk t).view.emb (ix2 j e)) = V m c main_v2 (ix2 ⟨t.val % 10 * 3200 + j.val, hr⟩ e)
  obtain ⟨-, -, e2, e3, -⟩ := idx_facts t
  refine congrArg _ (funext fun a => Fin.ext ?_)
  match a with
  | ⟨0, _⟩ => show win0_1.index t (0 : Fin 2) * 3200 + 1 * j.val = t.val % 10 * 3200 + j.val; rw [e2]; omega
  | ⟨1, _⟩ => show win0_1.index t (1 : Fin 2) * 128 + 1 * e.val = e.val; rw [e3]; omega

/-- The bias block is the bias vector. -/
theorem biasBlk_apply (c : Dev nD) (t : Fin cfg0.N) (e : Fin 128) :
    biasBlk m c t (ix1 e) = biasArr m c (ix1 e) := by
  unfold biasBlk iblk
  rw [View.read_apply]
  show V m c main_arg2 (((cfg0.win 2).blk t).view.emb (ix1 e)) = V m c main_arg2 (ix1 e)
  obtain ⟨-, -, -, -, e4, -⟩ := idx_facts t
  refine congrArg _ (funext fun a => Fin.ext ?_)
  match a with
  | ⟨0, _⟩ => show win0_2.index t (0 : Fin 1) * 128 + 1 * e.val = e.val; rw [e4]; omega

end Cert.KernelIdeal.Blocks

end
-- ==== Proof.LibColumns.lean ====
/- Three readings of layout operations at an index written by coordinates, at any extents and any element type:
   a one-column matrix broadcast along its rows; a column of a [1, a, b] block after its unit axis is dropped; a row of the
   transpose of such a block. Each composes the library's one-operation readings (a slice along one axis, a transpose, a
   dropped leading unit axis, a broadcast) for the shape a kernel body meets when it splits a block of 3-vectors
   into its coordinate columns (or, transposed, its coordinate rows) and broadcasts them against each other. -/
import Idealize.ShloMosaic.Lib.Pipeline.Value
import Idealize.ShloMosaic.Lib.ValueIdx
import Idealize.ShloMosaic.Lib.ValueLayout

namespace Cert.LibColumns

open Idealize.ShloMosaic Idealize.ShloMosaic.ValueIdx

/-- A one-column matrix [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column k of a [1, a, b] block, taken (as the slice at column offset o = k) after the unit axis is dropped, reads at
    row r the block's entry (0, r, k). -/
theorem column_apply {α : Type} {a b : ℕ} (o : ℕ) (x : (⟨3, ![1, a, b]⟩ : Shape).Idx → α)
    (hc : (⟨3, ![1, a, b]⟩ : Shape).ShapeCasts ⟨2, ![a, b]⟩) (hs : (⟨2, ![a, b]⟩ : Shape).Slices ![0, o] ⟨2, ![a, 1]⟩)
    (r : Fin a) (k : Fin b) (hk : k.val = o) :
    extractStridedSlice ⟨2, ![a, 1]⟩ ![0, o] (shapeCast ⟨2, ![a, b]⟩ x hc) hs (ix2 r (0 : Fin 1)) = x (ix3 (0 : Fin 1) r k) :=
  (slice2_axis1_apply o _ hs r (0 : Fin 1) k (by rw [hk]; rfl)).trans (shapeCast_1ab_ab_apply x hc r k)

/-- Row k of the transpose of a [1, a, b] block (the unit axis dropped first; the slice at row offset o = k) reads at
    column q the block's entry (0, q, k). -/
theorem transposed_row_apply {α : Type} {a b : ℕ} (o : ℕ) (x : (⟨3, ![1, a, b]⟩ : Shape).Idx → α)
    (hc : (⟨3, ![1, a, b]⟩ : Shape).ShapeCasts ⟨2, ![a, b]⟩) (ht : (⟨2, ![a, b]⟩ : Shape).Transposes [1, 0] ⟨2, ![b, a]⟩)
    (hs : (⟨2, ![b, a]⟩ : Shape).Slices ![o, 0] ⟨2, ![1, a]⟩) (q : Fin a) (k : Fin b) (hk : k.val = o) :
    extractStridedSlice ⟨2, ![1, a]⟩ ![o, 0] (transpose ⟨2, ![b, a]⟩ [1, 0] (shapeCast ⟨2, ![a, b]⟩ x hc) ht) hs (ix2 (0 : Fin 1) q)
      = x (ix3 (0 : Fin 1) q k) :=
  (slice2_axis0_apply o _ hs (0 : Fin 1) q k (by rw [hk]; rfl)).trans
    ((transpose_ix2_apply _ ht k q).trans (shapeCast_1ab_ab_apply x hc q k))

end Cert.LibColumns
-- ==== Proof.Payload.lean ====
/-
  The three values the kernel body stores, read at an index (p, e) of the [512, 128] block, at the ideal values.

  * the reset of the accumulator is the zero block;
  * the accumulation step adds to the accumulator the product of the one-hot block by the table block: at (p, e) the sum
    over the 3200 classes j of the block of [x(p) = j + 3200 * k] * w(j, e), k the class-block coordinate. At most one
    term of the sum is not zero, the one of the class j = x(p) - 3200 * k when that class lies in the block;
  * the last step adds the bias row to every row of the accumulator.
-/
import proofs.«425042_j78675210928791_1_alg».proof.Proof.Gen.KernelIdeal.Skeleton
import proofs.«425042_j78675210928791_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The reset value -/

/-- The value the first class block resets the accumulator to is zero everywhere. -/
theorem pay1_apply (p : Fin 512) (e : Fin 128) : k0_pay1 (F := Ideal) (ix2 p e) = 0 := by
  unfold k0_pay1
  rw [shapeCast_self]
  exact Ideal.ofBits_zero_f32

/-! ## The block product -/

/-- Row coordinate of the one-hot operand: the result's row. -/
theorem lhs_0 (i : S512x128.Idx) (q : dot_S512x3200_S3200x128_S512x128_1_0_0_1_n_n.contr.Idx) :
    (dot_S512x3200_S3200x128_S512x128_1_0_0_1_n_n.lhsIdx i q 0).val = (i 0).val := by
  unfold DotDims.lhsIdx
  rw [dif_neg (show ¬(0 : Fin S512x3200.rank) ∈ dot_S512x3200_S3200x128_S512x128_1_0_0_1_n_n.lhsBatch by decide),
    dif_pos (show (0 : Fin S512x3200.rank) ∈ dot_S512x3200_S3200x128_S512x128_1_0_0_1_n_n.lhsNonContracting by decide)]
  rfl

/-- Column coordinate of the one-hot operand: the contracted class. -/
theorem lhs_1 (i : S512x128.Idx) (q : dot_S512x3200_S3200x128_S512x128_1_0_0_1_n_n.contr.Idx) :
    (dot_S512x3200_S3200x128_S512x128_1_0_0_1_n_n.lhsIdx i q 1).val = (q ⟨0, by decide⟩).val :=
  dot_S512x3200_S3200x128_S512x128_1_0_0_1_n_n.lhsIdx_val_of_single rfl i q

/-- Row coordinate of the table block: the contracted class. -/
theorem rhs_0 (i : S512x128.Idx) (q : dot_S512x3200_S3200x128_S512x128_1_0_0_1_n_n.contr.Idx) :
    (dot_S512x3200_S3200x128_S512x128_1_0_0_1_n_n.rhsIdx i q 0).val = (q ⟨0, by decide⟩).val :=
  dot_S512x3200_S3200x128_S512x128_1_0_0_1_n_n.rhsIdx_val_of_single rfl i q

/-- Column coordinate of the table block: the result's column. -/
theorem rhs_1 (i : S512x128.Idx) (q : dot_S512x3200_S3200x128_S512x128_1_0_0_1_n_n.contr.Idx) :
    (dot_S512x3200_S3200x128_S512x128_1_0_0_1_n_n.rhsIdx i q 1).val = (i 1).val := by
  unfold DotDims.rhsIdx
  rw [dif_neg (show ¬(1 : Fin S3200x128.rank) ∈ dot_S512x3200_S3200x128_S512x128_1_0_0_1_n_n.rhsBatch by decide),
    dif_pos (show (1 : Fin S3200x128.rank) ∈ dot_S512x3200_S3200x128_S512x128_1_0_0_1_n_n.rhsNonContracting by decide)]
  rfl

/-- The product of a [512, 3200] block by a [3200, 128] block into the zero block, read at (p, e): the sum over the 3200
    contracted classes of the products of the entries. -/
theorem matmul_block_apply (L : FVec Ideal S512x3200 .bf16) (R : FVec Ideal S3200x128 .bf16) (p : Fin 512) (e : Fin 128) :
    matmul dot_S512x3200_S3200x128_S512x128_1_0_0_1_n_n none L R (constant (F := Ideal) S512x128 .f32 0x00000000#32) (ix2 p e)
      = ∑ c : Fin 3200, L (ix2 p c) * R (ix2 c e) := by
  simp only [matmul]
  rw [Ideal.matmul_constant_zero_apply,
    ← Equiv.sum_comp (contrEquiv1 dot_S512x3200_S3200x128_S512x128_1_0_0_1_n_n 3200 rfl rfl).symm]
  refine Finset.sum_congr rfl fun c _ => ?_
  have hk := contrEquiv1_symm_val dot_S512x3200_S3200x128_S512x128_1_0_0_1_n_n 3200 rfl rfl c
  have el : dot_S512x3200_S3200x128_S512x128_1_0_0_1_n_n.lhsIdx (ix2 p e)
      ((contrEquiv1 dot_S512x3200_S3200x128_S512x128_1_0_0_1_n_n 3200 rfl rfl).symm c) = ix2 p c :=
    funext fun a => Fin.ext (by
      match a with
      | ⟨0, _⟩ => exact lhs_0 _ _
      | ⟨1, _⟩ => exact (lhs_1 _ _).trans hk)
  have er : dot_S512x3200_S3200x128_S512x128_1_0_0_1_n_n.rhsIdx (ix2 p e)
      ((contrEquiv1 dot_S512x3200_S3200x128_S512x128_1_0_0_1_n_n 3200 rfl rfl).symm c) = ix2 c e :=
    funext fun a => Fin.ext (by
      match a with
      | ⟨0, _⟩ => exact (rhs_0 _ _).trans hk
      | ⟨1, _⟩ => exact rhs_1 _ _)
  rw [el, er]

/-! ## The one-hot block -/

/-- An integer comparison of two vectors at an index compares the elements. -/
theorem cmpi_apply {s : Shape} {w : Nat} (pr : CmpIPredicate) (a b : IVec s w) (j : s.Idx) :
    cmpi pr a b j = IntOp.cmpi pr (a j) (b j) := rfl

/-- An integer sum of two vectors at an index adds the elements. -/
theorem addi_apply {s : Shape} {w : Nat} (a b : IVec s w) (j : s.Idx) : addi a b j = IntOp.addi (a j) (b j) := rfl

/-- The class a lane of the block names: lane `c` of class block `k` is class `c + 3200 * k`; with `c` below 3200 and `k`
    below 10 the 32-bit sum and product do not wrap. -/
theorem class_word (c k : ℕ) (hc : c < 3200) (hk : k < 10) :
    IntOp.addi (BitVec.ofNat 32 c) (Scalar.muli (BitVec.ofNat 32 k) 3200#32) = BitVec.ofNat 32 (c + k * 3200) := by
  unfold IntOp.addi Scalar.muli IntOp.muli
  apply BitVec.eq_of_toNat_eq
  simp only [BitVec.toNat_add, BitVec.toNat_mul, BitVec.toNat_ofNat]
  omega

/-- One entry of the one-hot block: the comparison bit of a word with a class below 32000, widened to 32 bits and converted,
    is 1 where the word is that class and 0 elsewhere. -/
theorem onehot_word (x : BitVec 32) (m : ℕ) (hm : m < 32000) :
    FloatOps.sitofp (F := Ideal) .f32 ((IntOp.cmpi .eq x (BitVec.ofNat 32 m)).setWidth 32)
      = if x.toNat = m then (1 : EReal) else 0 := by
  show (((((BitVec.ofBool (x == BitVec.ofNat 32 m)).setWidth 32).toInt : ℤ) : ℝ) : EReal) = _
  by_cases h : x.toNat = m
  · have hx : x = BitVec.ofNat 32 m := by rw [← h, BitVec.ofNat_toNat, BitVec.setWidth_eq]
    rw [if_pos h, hx, beq_self_eq_true]
    show (((1 : ℤ) : ℝ) : EReal) = 1
    rw [Int.cast_one, EReal.coe_one]
  · have hx : (x == BitVec.ofNat 32 m) = false := by
      rw [beq_eq_false_iff_ne]
      intro hx
      apply h
      rw [hx, BitVec.toNat_ofNat]
      omega
    rw [if_neg h, hx]
    show (((0 : ℤ) : ℝ) : EReal) = 0
    rw [Int.cast_zero, EReal.coe_zero]

/-! ## The accumulation step -/

/-- The accumulation step's store: the accumulator plus, where the word `x(p)` names a class of the block `i 1`, the table
    block's entry for that class; the sum over the block's classes of one-hot entry times table entry has at most that one
    term. -/
theorem pay2_apply (i : grid0.Coords) (xb : Vec Ideal S512x1 .i32) (acc : Vec Ideal S512x128 .f32) (wb : Vec Ideal S3200x128 .bf16) (p : Fin 512) (e : Fin 128) :
      k0_pay2 (F := Ideal) i xb acc wb (ix2 p e)
        = acc (ix2 p e) + (if h : (i 1).val * 3200 ≤ (xb (ix2 p (0 : Fin 1))).toNat ∧ (xb (ix2 p (0 : Fin 1))).toNat < (i 1).val * 3200 + 3200
            then wb (ix2 (⟨(xb (ix2 p (0 : Fin 1))).toNat - (i 1).val * 3200, by omega⟩ : Fin 3200) e) else 0) := by
  unfold k0_pay2
  rw [shapeCast_self, addf_apply, matmul_block_apply, shapeCast_self xb, shapeCast_self wb]
  congr 1
  have hk : (i 1).val < 10 := (i 1).isLt
  trans ∑ c : Fin 3200, (if (xb (ix2 p (0 : Fin 1))).toNat = c.val + (i 1).val * 3200 then (1 : EReal) else 0) * wb (ix2 c e)
  · -- entry (p, c) of the one-hot block
    refine Finset.sum_congr rfl fun c _ => ?_
    congr 1
    rw [truncf_apply, sitofp_apply, extui_apply, cmpi_apply, Cert.LibColumns.broadcastTo_a1_ab_apply,
      broadcastTo_1b_ab_apply, addi_apply, iota_single_apply, broadcast_apply]
    show FloatOps.sitofp (F := Ideal) .f32 ((IntOp.cmpi .eq (xb (ix2 p (0 : Fin 1)))
      (IntOp.addi (BitVec.ofNat 32 c.val) (Scalar.muli (BitVec.ofNat 32 (i 1).val) 3200#32))).setWidth 32) = _
    rw [class_word c.val (i 1).val c.isLt hk, onehot_word _ _ (by have := c.isLt; omega)]
  · -- at most one class of the block is the word's
    by_cases h : (i 1).val * 3200 ≤ (xb (ix2 p (0 : Fin 1))).toNat ∧ (xb (ix2 p (0 : Fin 1))).toNat < (i 1).val * 3200 + 3200
    · rw [dif_pos h,
        Finset.sum_eq_single (⟨(xb (ix2 p (0 : Fin 1))).toNat - (i 1).val * 3200, by omega⟩ : Fin 3200)]
      · rw [if_pos (by show _ = (xb (ix2 p (0 : Fin 1))).toNat - (i 1).val * 3200 + (i 1).val * 3200; omega), one_mul]
      · intro c _ hc
        rw [if_neg, zero_mul]
        intro hn
        apply hc
        apply Fin.ext
        show c.val = (xb (ix2 p (0 : Fin 1))).toNat - (i 1).val * 3200
        omega
      · intro hnot
        exact absurd (Finset.mem_univ _) hnot
    · rw [dif_neg h]
      refine Finset.sum_eq_zero fun c _ => ?_
      rw [if_neg, zero_mul]
      intro hn
      apply h
      have := c.isLt
      omega

/-! ## The bias step -/

/-- The last class block's store: the accumulator plus the bias of the column. -/
theorem pay3_apply (acc : Vec Ideal S512x128 .f32) (bv : Vec Ideal S128 .f32) (p : Fin 512) (e : Fin 128) :
    k0_pay3 (F := Ideal) acc bv (ix2 p e) = acc (ix2 p e) + bv (ix1 e) := by
  unfold k0_pay3
  rw [addf_apply, broadcastTo_1b_ab_apply, shapeCast_a_1a_apply]

end Cert.KernelIdeal.Pay

end
-- ==== Proof.Acc.lean ====
/-
  The accumulator across the grid, and what the last class block writes out.

  Fix a row block and one of its 512 rows, with class id `w` (as a natural number). Walking the ten class blocks
  `k = 0 … 9`, block `k` adds to entry `(p, e)` of the accumulator the one-hot product
      ∑ j < 3200, [w = 3200·k + j] · Wᵀ[3200·k + j, e]  =  Wᵀ[w, e] if 3200·k ≤ w < 3200·(k+1), else 0,
  so after block `k` the entry is `Wᵀ[w, e]` if `w < 3200·(k+1)` and `0` otherwise (induction on the grid point: the
  first block starts from the zero block, every later one from what the block before left). After block 9 every
  `w < 32000` has been met exactly once: the entry is `Wᵀ[w, e]` (and `0` for a word that names no class), and the
  output block written there is that plus the bias. Only `0 + a = a` and `a + 0 = a` on the extended reals are used.
-/
import proofs.«425042_j78675210928791_1_alg».proof.Proof.Pieces
import proofs.«425042_j78675210928791_1_alg».proof.Proof.Blocks
import proofs.«425042_j78675210928791_1_alg».proof.Proof.Payload
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Blocks Cert.KernelIdeal.Pieces Cert.KernelIdeal.Pay

variable (m : (ℓ : Loc nD τ sig) → Buf (Elt Ideal) ℓ)

/-! ## What each case leaves, at the point's own blocks -/

/-- The accumulator as the point before left it (the point itself, at the first point: never consulted there). -/
abbrev before (c : Dev nD) (t : Fin cfg0.N) : Vec Ideal S512x128 .f32 :=
  (outsAt0 m c (t.val - 1) (Nat.lt_of_le_of_lt (Nat.sub_le _ _) t.isLt)).2

theorem scratch_first (c : Dev nD) (t : Fin cfg0.N) (h0 : t.val % 10 = 0) (h1 : ¬t.val % 10 = 9) :
    (outsAt0 m c t.val t.isLt).2 = k0_pay2 (grid0.coords t) (idsBlk m c t) (k0_pay1 (F := Ideal)) (tblBlk m c t) := by
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (idsBlk m c t) (tblBlk m c t) (biasBlk m c t)

theorem scratch_middle (c : Dev nD) (t : Fin cfg0.N) (h0 : ¬t.val % 10 = 0) (h1 : ¬t.val % 10 = 9) :
    (outsAt0 m c t.val t.isLt).2 = k0_pay2 (grid0.coords t) (idsBlk m c t) (before m c t) (tblBlk m c t) := by
  rw [outsAt0_B m c t h0 h1]
  dsimp only
  exact scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (idsBlk m c t) (tblBlk m c t) (biasBlk m c t) (before m c t)

theorem scratch_last (c : Dev nD) (t : Fin cfg0.N) (h0 : ¬t.val % 10 = 0) (h1 : t.val % 10 = 9) :
    (outsAt0 m c t.val t.isLt).2 = k0_pay2 (grid0.coords t) (idsBlk m c t) (before m c t) (tblBlk m c t) := by
  rw [outsAt0_C m c t h0 h1]
  dsimp only
  exact scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (idsBlk m c t) (tblBlk m c t) (biasBlk m c t) (before m c t)

theorem out_last (c : Dev nD) (t : Fin cfg0.N) (h0 : ¬t.val % 10 = 0) (h1 : t.val % 10 = 9) :
    (outsAt0 m c t.val t.isLt).1 = k0_pay3 (k0_pay2 (grid0.coords t) (idsBlk m c t) (before m c t) (tblBlk m c t)) (biasBlk m c t) := by
  rw [outsAt0_C m c t h0 h1]
  dsimp only
  exact out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (idsBlk m c t) (tblBlk m c t) (biasBlk m c t) (before m c t)

/-! ## The one-hot product of a class block -/

/-- The class id, as a natural number, of row `p` of the row block of point `n`. -/
def wordAt (c : Dev nD) (n p : ℕ) : ℕ := (idAt (idsArr m c) (n / 10 * 512 + p)).toNat

/-- A table block whose rows are rows `k·3200 + j` of the table, read at the row a word `w` of this class block names,
    is the table's row `w`. -/
theorem hot_row (k w : ℕ) (wb : Vec Ideal S3200x128 .bf16) (T : FVec Ideal S32000x128 .bf16) (e : Fin 128)
    (hwb : ∀ j : Fin 3200, wb (ix2 j e) = entry T e (k * 3200 + j.val)) :
    (if h : k * 3200 ≤ w ∧ w < k * 3200 + 3200 then wb (ix2 (⟨w - k * 3200, by omega⟩ : Fin 3200) e) else 0)
      = if k * 3200 ≤ w ∧ w < k * 3200 + 3200 then entry T e w else 0 := by
  by_cases h : k * 3200 ≤ w ∧ w < k * 3200 + 3200
  · rw [dif_pos h, if_pos h, hwb]
    exact congrArg _ (by show k * 3200 + (w - k * 3200) = w; omega)
  · rw [dif_neg h, if_neg h]

/-- The accumulate step at point `t`, entry `(p, e)`: what the accumulator held, plus the table's row the row's class id
    names if that id falls in this point's class block. -/
theorem step_at (c : Dev nD) (t : Fin cfg0.N) (acc : Vec Ideal S512x128 .f32) (p : Fin 512) (e : Fin 128) :
    k0_pay2 (F := Ideal) (grid0.coords t) (idsBlk m c t) acc (tblBlk m c t) (ix2 p e)
      = acc (ix2 p e) + (if t.val % 10 * 3200 ≤ wordAt m c t.val p.val ∧ wordAt m c t.val p.val < t.val % 10 * 3200 + 3200
          then entry (tblArr m c) e (wordAt m c t.val p.val) else 0) := by
  obtain ⟨-, -, -, -, -, -, -, e7⟩ := idx_facts t
  rw [pay2_apply, hot_row (grid0.coords t (1 : Fin 2)).val _ (tblBlk m c t) (tblArr m c) e
    (fun j => by rw [tblBlk_apply, e7]), e7, idsBlk_apply]
  rfl

/-! ## The accumulator after every point -/

/-- After point `n` the accumulator's entry `(p, e)` is the table's row the row's class id names, once the class blocks
    walked so far (`0 … n % 10`) include that id; zero until then. -/
def partialSum (c : Dev nD) (n : ℕ) (p : Fin 512) (e : Fin 128) : EReal :=
  if wordAt m c n p.val < n % 10 * 3200 + 3200 then entry (tblArr m c) e (wordAt m c n p.val) else 0

theorem acc_eq (c : Dev nD) : ∀ (n : ℕ) (h : n < cfg0.N) (p : Fin 512) (e : Fin 128),
    ((outsAt0 m c n h).2 : Vec Ideal S512x128 .f32) (ix2 p e) = partialSum m c n p e := by
  intro n
  induction n with
  | zero =>
    intro h p e
    have hs := scratch_first m c ⟨0, h⟩ (Nat.zero_mod _) (by show ¬(0 % 10 = 9); omega)
    rw [show (outsAt0 m c 0 h).2 = _ from hs, step_at, pay1_apply]
    unfold partialSum
    by_cases hw : wordAt m c 0 p.val < 3200
    · rw [if_pos (by show 0 % 10 * 3200 ≤ wordAt m c 0 p.val ∧ wordAt m c 0 p.val < 0 % 10 * 3200 + 3200; omega),
        if_pos (by show wordAt m c 0 p.val < 0 % 10 * 3200 + 3200; omega), zero_add]
    · rw [if_neg (by show ¬(0 % 10 * 3200 ≤ wordAt m c 0 p.val ∧ wordAt m c 0 p.val < 0 % 10 * 3200 + 3200); omega),
        if_neg (by show ¬(wordAt m c 0 p.val < 0 % 10 * 3200 + 3200); omega), add_zero]
  | succ n ih =>
    intro h p e
    have hw : wordAt m c (n + 1) p.val = wordAt m c (n + 1) p.val := rfl
    by_cases h0 : (n + 1) % 10 = 0
    · have hs := scratch_first m c ⟨n + 1, h⟩ h0 (by show ¬(n + 1) % 10 = 9; omega)
      rw [show (outsAt0 m c (n + 1) h).2 = _ from hs, step_at, pay1_apply]
      unfold partialSum
      show 0 + (if (n + 1) % 10 * 3200 ≤ wordAt m c (n + 1) p.val ∧ wordAt m c (n + 1) p.val < (n + 1) % 10 * 3200 + 3200 then _ else 0) = _
      rw [h0, zero_add]
      by_cases hw : wordAt m c (n + 1) p.val < 3200
      · rw [if_pos (by omega), if_pos (by omega)]
      · rw [if_neg (by omega), if_neg (by omega)]
    · have hprev : ((before m c ⟨n + 1, h⟩) : Vec Ideal S512x128 .f32) (ix2 p e) = partialSum m c n p e :=
        ih (Nat.lt_of_succ_lt h) p e
      have hs : (outsAt0 m c (n + 1) h).2 = k0_pay2 (grid0.coords ⟨n + 1, h⟩) (idsBlk m c ⟨n + 1, h⟩) (before m c ⟨n + 1, h⟩) (tblBlk m c ⟨n + 1, h⟩) := by
        by_cases h1 : (n + 1) % 10 = 9
        · exact scratch_last m c ⟨n + 1, h⟩ h0 h1
        · exact scratch_middle m c ⟨n + 1, h⟩ h0 h1
      rw [hs, step_at, hprev]
      unfold partialSum
      have hd : n / 10 = (n + 1) / 10 := by omega
      have hw' : wordAt m c n p.val = wordAt m c (n + 1) p.val := by unfold wordAt; rw [hd]
      rw [hw']
      show (if wordAt m c (n + 1) p.val < n % 10 * 3200 + 3200 then _ else 0)
        + (if (n + 1) % 10 * 3200 ≤ wordAt m c (n + 1) p.val ∧ wordAt m c (n + 1) p.val < (n + 1) % 10 * 3200 + 3200 then _ else 0) = _
      have hk : n % 10 + 1 = (n + 1) % 10 := by omega
      by_cases ha : wordAt m c (n + 1) p.val < n % 10 * 3200 + 3200
      · rw [if_pos ha, if_neg (by omega), if_pos (by omega), add_zero]
      · by_cases hb : wordAt m c (n + 1) p.val < (n + 1) % 10 * 3200 + 3200
        · rw [if_neg ha, if_pos (by omega), if_pos hb, zero_add]
        · rw [if_neg ha, if_neg (by omega), if_neg hb, add_zero]

/-- After the last class block of a row block the accumulator holds, for every row, the table's row its class id
    names — or zero where the id names no class. -/
theorem acc_last (c : Dev nD) (t : Fin cfg0.N) (h1 : t.val % 10 = 9) (p : Fin 512) (e : Fin 128) :
    ((outsAt0 m c t.val t.isLt).2 : Vec Ideal S512x128 .f32) (ix2 p e) = entry (tblArr m c) e (wordAt m c t.val p.val) := by
  rw [acc_eq m c t.val t.isLt p e]
  unfold partialSum
  by_cases hw : wordAt m c t.val p.val < 32000
  · rw [if_pos (by omega)]
  · rw [if_neg (by omega)]
    unfold entry
    rw [dif_neg hw]

/-- What the last class block writes to the output block: that row plus the bias. -/
theorem out_apply (c : Dev nD) (t : Fin cfg0.N) (h1 : t.val % 10 = 9) (p : Fin 512) (e : Fin 128) :
    ((outsAt0 m c t.val t.isLt).1 : Vec Ideal S512x128 .f32) (ix2 p e)
      = entry (tblArr m c) e (wordAt m c t.val p.val) + biasArr m c (ix1 e) := by
  have h0 : ¬t.val % 10 = 0 := by omega
  rw [out_last m c t h0 h1, pay3_apply, biasBlk_apply, ← scratch_last m c t h0 h1, acc_last m c t h1]

end Cert.KernelIdeal.Acc

end
-- ==== Proof.HostGlue.lean ====
/-
  What the kernel call finds in its operand arrays, and what the program's last reshape makes of its result.

  Before the call the program reshapes the class ids `[64, 4096]` to one column `[262144, 1]`, transposes the table
  `[128, 32000]` to `[32000, 128]` and narrows it to bf16; after the call it reshapes the result `[262144, 128]` to
  `[64, 4096, 128]`. A reshape keeps the row-major position: row `r` of the column is the id at
  `(r / 4096, r % 4096)`, and entry `(s, t, e)` of the final array is entry `(4096 s + t, e)` of the call's result.
  A transpose swaps the two coordinates, and over the extended reals a change of float format is the identity, so
  the table the call reads holds at `(n, e)` the given table's entry `(e, n)`.
-/
import proofs.«425042_j78675210928791_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Glue

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-! ## Before the call -/

/-- The column of ids the call reads is the given ids, reshaped. -/
theorem ids_eq (c : Dev nD) :
    (V m c main_v0 : Vec Ideal S262144x1 .i32)
      = shapeCast S262144x1 (m ((c : Thread nD τ).loc main_arg0) : Vec Ideal S64x4096 .i32) shapeCasts_S64x4096_S262144x1 := by
  show StableHlo.after hostOps0 (fun b => m (c, b)) (Proc.devRef .tc main_v0) = _
  after_results
  rfl

/-- The table the call reads is the given table, transposed and narrowed. -/
theorem table_eq (c : Dev nD) :
    (V m c main_v2 : Vec Ideal S32000x128 .bf16)
      = (truncf (F := Ideal) .bf16 (transpose S32000x128 [1, 0] (m ((c : Thread nD τ).loc main_arg1) : FVec Ideal S128x32000 .f32)
          transposes_S128x32000_S32000x128_1_0) bitsLt_bf16_f32 : FVec Ideal S32000x128 .bf16) := by
  show StableHlo.after hostOps0 (fun b => m (c, b)) (Proc.devRef .tc main_v2) = _
  after_results

/-- Row `r` of the column of ids is the id at `(r / 4096, r % 4096)`: the same row-major position,
    `(r / 4096) · 4096 + r % 4096 = r · 1 + 0`. -/
theorem ids_apply (c : Dev nD) (r : Fin 262144) :
    (V m c main_v0 : Vec Ideal S262144x1 .i32) (ix2 r (0 : Fin 1))
      = (m ((c : Thread nD τ).loc main_arg0) : Vec Ideal S64x4096 .i32) (ix2 (⟨r.val / 4096, by have := r.isLt; omega⟩ : Fin 64) (⟨r.val % 4096, by have := r.isLt; omega⟩ : Fin 4096)) := by
  rw [ids_eq]
  refine shapeCast_apply (s := S64x4096) (t := S262144x1) _ _ _ _ ?_
  rw [Shape.rowMajor_val_two, Shape.rowMajor_val_two]
  show (r.val / 4096) * 4096 + r.val % 4096 = r.val * 1 + 0
  omega

/-- The table the call reads holds, at `(n, e)`, the given table's entry `(e, n)`: the transpose swaps the
    coordinates, and the narrowing to bf16 is the identity over the extended reals. -/
theorem table_apply (c : Dev nD) (n : Fin 32000) (e : Fin 128) :
    (V m c main_v2 : Vec Ideal S32000x128 .bf16) (ix2 n e) = (m ((c : Thread nD τ).loc main_arg1) : Vec Ideal S128x32000 .f32) (ix2 e n) := by
  rw [table_eq, truncf_apply]
  exact transpose_ix2_apply _ _ n e

/-! ## After the call -/

/-- The program's result is the call's result array as the call leaves it, reshaped. -/
theorem tail_eq (c : Dev nD) :
    (Pipeline.afterTail₀ cfgs (dats m) 0 (V0 m) [hostOps1] c main_v4 : Vec Ideal S64x4096x128 .f32)
      = shapeCast S64x4096x128 ((dats m 0 c).arrAt 3 cfg0.N : Vec Ideal S262144x128 .f32) shapeCasts_S262144x128_S64x4096x128 := by
  unfold Pipeline.afterTail₀
  show StableHlo.after hostOps1 _ (Proc.devRef .tc main_v4) = _
  after_results
  funext i
  -- the reshape's operand is the call's fourth array, which holds what the call left there
  exact congrArg (fun x : Vec Ideal S262144x128 .f32 => shapeCast S64x4096x128 x shapeCasts_S262144x128_S64x4096x128 i)
    (Pipeline.withArrays_arr spec0 launch0.win.arr_inj c (V0 m c) (fun w => (dats m 0 c).arrAt w cfg0.N) 3)

/-- Entry `(s, t, e)` of the program's result is entry `(4096 s + t, e)` of the call's result: the same row-major
    position, `(4096 s + t) · 128 + e`. -/
theorem tail_apply (c : Dev nD) (s : Fin 64) (t : Fin 4096) (e : Fin 128) :
    (Pipeline.afterTail₀ cfgs (dats m) 0 (V0 m) [hostOps1] c main_v4 : Vec Ideal S64x4096x128 .f32) (ix3 s t e)
      = ((dats m 0 c).arrAt 3 cfg0.N : Vec Ideal S262144x128 .f32) (ix2 (⟨s.val * 4096 + t.val, by have := s.isLt; have := t.isLt; omega⟩ : Fin 262144) e) := by
  rw [tail_eq]
  refine shapeCast_apply (s := S262144x128) (t := S64x4096x128) _ _ _ _ ?_
  rw [Shape.rowMajor_val_two, Shape.rowMajor_val_three]
  rfl

end Cert.KernelIdeal.Glue

end
-- ==== Proof.Spec.lean ====
/-
  The embedding lookup, as ONE function of the three argument arrays.

  The class ids `x : [64, 4096]` are 32-bit words; the table `W : [128, 32000]` holds, in column `n`, the embedding
  of class `n`; `b : [128]` is the bias. The result at `(s, t, e)` is `W[e, x[s, t]] + b[e]`: the row of `Wᵀ` the word
  names, plus the bias. `column W e n` reads `W[e, n]` for every natural `n`, with value `0` where `n` names no class:
  that is exactly what a sum of one-hot products `∑ₙ [x = n] · W[e, n]` over the classes gives at a word no class
  equals, so the kernel's side needs no hypothesis on `x`; the reference's side (a gather) agrees with it where every
  word, read signed, lies in `[0, 32000)` (`InRange`).
-/
import Idealize.ShloMosaic.PureOps.Ideal
import Idealize.ShloMosaic.Lib.ValueIdx

noncomputable section

namespace Cert.Lookup

open Idealize.ShloMosaic Idealize.ShloMosaic.ValueIdx

/-- Every class id, read as a signed integer, names one of the 32000 classes. -/
def InRange (x : IVec ⟨2, ![64, 4096]⟩ 32) : Prop :=
  ∀ p : (⟨2, ![64, 4096]⟩ : Shape).Idx, 0 ≤ (x p).toInt ∧ (x p).toInt < 32000

/-- `W[e, n]`, and `0` where `n` is past the last class. -/
def column (W : FVec Ideal ⟨2, ![128, 32000]⟩ .f32) (e : Fin 128) (n : ℕ) : EReal :=
  if h : n < 32000 then W (ix2 e ⟨n, h⟩) else 0

/-- The lookup: at `(s, t, e)` the entry `W[e, x[s, t]]` plus the bias `b[e]`. -/
def lookup (x : IVec ⟨2, ![64, 4096]⟩ 32) (W : FVec Ideal ⟨2, ![128, 32000]⟩ .f32) (b : FVec Ideal ⟨1, ![128]⟩ .f32) :
    FVec Ideal ⟨3, ![64, 4096, 128]⟩ .f32 :=
  fun i => column W (i 2) (x (ix2 (i 0) (i 1))).toNat + b (ix1 (i 2))

theorem lookup_apply (x : IVec ⟨2, ![64, 4096]⟩ 32) (W : FVec Ideal ⟨2, ![128, 32000]⟩ .f32) (b : FVec Ideal ⟨1, ![128]⟩ .f32)
    (s : Fin 64) (t : Fin 4096) (e : Fin 128) :
    lookup x W b (ix3 s t e) = column W e (x (ix2 s t)).toNat + b (ix1 e) := rfl

/-- Where the word is in range, read signed, it is its own natural value and names a class. -/
theorem toNat_lt_of_inRange {x : IVec ⟨2, ![64, 4096]⟩ 32} (hx : InRange x) (p : (⟨2, ![64, 4096]⟩ : Shape).Idx) :
    (x p).toNat < 32000 ∧ (x p).toInt.toNat = (x p).toNat := by
  obtain ⟨h0, h1⟩ := hx p
  have hb : (x p).toNat < 2 ^ 32 := (x p).isLt
  rw [BitVec.toInt_eq_toNat_cond] at h0 h1 ⊢
  split_ifs at h0 h1 ⊢ with hc <;> omega

end Cert.Lookup

end
-- ==== Proof.Result.lean ====
/-
  The kernel's result array, and @main's result, as the lookup of the three arguments.

  The output window's block at a row block's last class block is rows `(t / 10)·512 + p` of the [262144, 128] array
  `rows`: row `r` is the transposed table's row named by the class id in flat row `r`, plus the bias. Those 512 blocks
  tile the array, so the array ends holding `rows`. @main's reshape of the ids ([64, 4096] → [262144, 1]: flat row
  `s·4096 + t`), its transpose of the table (`Wᵀ[n, e] = W[e, n]`; the cast to bf16 is the identity over the extended
  reals) and its final reshape ([262144, 128] → [64, 4096, 128]) then make @main's result the lookup.
-/
import proofs.«425042_j78675210928791_1_alg».proof.Proof.Acc
import proofs.«425042_j78675210928791_1_alg».proof.Proof.HostGlue
import proofs.«425042_j78675210928791_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Acc Cert.Lookup

variable (m : (ℓ : Loc nD τ sig) → Buf (Elt Ideal) ℓ) (ρ : Dev nD → PrngReg)

/-- The pallas_call's result array: row `r` holds the transposed table's row named by the class id in row `r` of the flat id
    array, plus the bias. -/
def rows (c : Dev nD) : FVec Ideal S262144x128 .f32 :=
  fun j => entry (tblArr m c) (j 1) (idAt (idsArr m c) (j 0).val).toNat + biasArr m c (ix1 (j 1))

/-- What the last class block of row block `t / 10` writes back is that row block of `rows`. -/
theorem flushed_eq (c : Dev nD) (t : Fin cfg0.N) (hf : (cfg0.win 3).flush t = true) :
    (dats m 0 c).flushed 3 t = ((cfg0.win 3).blk t).view.read (Elt Ideal) (rows m c) := by
  have h1 : t.val % 10 = 9 := (flush0_3 t).mp hf
  have hN : t.val < 5120 := lt_of_lt_of_eq t.isLt N_eq
  show (cfg0.win 3).cut (grid0.coords t) ((dats m 0 c).after 3 t) = _
  rw [after0_3]
  funext y
  obtain ⟨p, e, rfl⟩ : ∃ (p : Fin 512) (e : Fin 128), y = ix2 p e := ⟨y 0, y 1, eq_ix2 y⟩
  rw [View.read_apply]
  show ((outsAt0 m c t.val t.isLt).1 : Vec Ideal S512x128 .f32) (ix2 p e) = rows m c (((cfg0.win 3).blk t).view.emb (ix2 p e))
  rw [out_apply m c t h1 p e]
  obtain ⟨-, -, -, -, -, e5, e6, -⟩ := idx_facts t
  have hp := p.isLt
  have hr : t.val / 10 * 512 + p.val < 262144 := by omega
  have hemb : ((cfg0.win 3).blk t).view.emb (ix2 p e) = (ix2 (⟨t.val / 10 * 512 + p.val, hr⟩ : Fin 262144) e : S262144x128.Idx) := by
    funext a; apply Fin.ext
    match a with
    | ⟨0, _⟩ => show win0_3.index t (0 : Fin 2) * 512 + 1 * p.val = t.val / 10 * 512 + p.val; rw [e5]; omega
    | ⟨1, _⟩ => show win0_3.index t (1 : Fin 2) * 128 + 1 * e.val = e.val; rw [e6]; omega
  rw [hemb]
  rfl

/-- An index of the result array is in point `t`'s block iff each coordinate is in the block's range on its axis. -/
theorem mem_blk (t : Fin cfg0.N) (i : S262144x128.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v3).slice (win0_3.rect t)).set ↔ _
  rw [View.set_slice_whole, Rect.mem_set_unit]
  exact Iff.rfl

/-- Every row of the result array lies in the block some row block's last class block writes back. -/
theorem cover (i : S262144x128.Idx) : ∃ t : Fin cfg0.N, (cfg0.win 3).flush t = true ∧ i ∈ ((cfg0.win 3).blk t).view.set := by
  have hi0 : (i 0).val < 262144 := (i 0).isLt
  have hi1 : (i 1).val < 128 := (i 1).isLt
  have ht : (i 0).val / 512 * 10 + 9 < cfg0.N := by rw [N_eq]; omega
  refine ⟨⟨(i 0).val / 512 * 10 + 9, ht⟩, (flush0_3 _).mpr (by show ((i 0).val / 512 * 10 + 9) % 10 = 9; omega), ?_⟩
  rw [mem_blk]
  obtain ⟨-, -, -, -, -, e5, e6, -⟩ := idx_facts ⟨(i 0).val / 512 * 10 + 9, ht⟩
  intro a
  match a with
  | ⟨0, _⟩ =>
    show win0_3.index ⟨(i 0).val / 512 * 10 + 9, ht⟩ (0 : Fin 2) * 512 ≤ (i 0).val ∧ (i 0).val < win0_3.index ⟨(i 0).val / 512 * 10 + 9, ht⟩ (0 : Fin 2) * 512 + 512
    rw [e5]; show ((i 0).val / 512 * 10 + 9) / 10 * 512 ≤ (i 0).val ∧ (i 0).val < ((i 0).val / 512 * 10 + 9) / 10 * 512 + 512
    omega
  | ⟨1, _⟩ =>
    show win0_3.index ⟨(i 0).val / 512 * 10 + 9, ht⟩ (1 : Fin 2) * 128 ≤ (i 1).val ∧ (i 1).val < win0_3.index ⟨(i 0).val / 512 * 10 + 9, ht⟩ (1 : Fin 2) * 128 + 128
    rw [e6]; omega

/-- So the result array ends holding `rows`. -/
theorem final (c : Dev nD) : (dats m 0 c).arrAt 3 cfg0.N = rows m c :=
  (dats m 0 c).arrAt_eq_of_cover 3 (rows m c) (flushed_eq m c) cover

/-- Read through @main's reshapes and transpose, `rows` at flat row `s·4096 + t` is the lookup at `(s, t)`. -/
theorem rows_eq_lookup (c : Dev nD) (s : Fin 64) (t : Fin 4096) (e : Fin 128) (hr : s.val * 4096 + t.val < 262144) :
    rows m c (ix2 (⟨s.val * 4096 + t.val, hr⟩ : Fin 262144) e)
      = lookup (m ((c : Thread nD τ).loc main_arg0)) (m ((c : Thread nD τ).loc main_arg1)) (m ((c : Thread nD τ).loc main_arg2)) (ix3 s t e) := by
  have hs := s.isLt
  have ht := t.isLt
  rw [lookup_apply]
  show entry (tblArr m c) e (idAt (idsArr m c) (s.val * 4096 + t.val)).toNat + biasArr m c (ix1 e) = _
  have hid : idAt (idsArr m c) (s.val * 4096 + t.val) = (m ((c : Thread nD τ).loc main_arg0) : IVec S64x4096 32) (ix2 s t) := by
    unfold idAt
    rw [dif_pos hr]
    show (V m c main_v0 : Vec Ideal S262144x1 .i32) (ix2 (⟨s.val * 4096 + t.val, hr⟩ : Fin 262144) (0 : Fin 1)) = _
    rw [Glue.ids_apply m c ⟨s.val * 4096 + t.val, hr⟩]
    refine congrArg _ (funext fun a => Fin.ext ?_)
    match a with
    | ⟨0, _⟩ => show (s.val * 4096 + t.val) / 4096 = s.val; omega
    | ⟨1, _⟩ => show (s.val * 4096 + t.val) % 4096 = t.val; omega
  have hcol : ∀ n : ℕ, entry (tblArr m c) e n = column (m ((c : Thread nD τ).loc main_arg1)) e n := fun n => by
    unfold entry column
    by_cases hn : n < 32000
    · rw [dif_pos hn, dif_pos hn]
      exact Glue.table_apply m c ⟨n, hn⟩ e
    · rw [dif_neg hn, dif_neg hn]
  rw [hid, hcol]
  show _ + (V m c main_arg2 : Vec Ideal S128 .f32) (ix1 e) = _
  rw [V_main_arg2 m c]

/-- The kernel's run, read: the result of @main is the lookup of the three arguments, which end unchanged. -/
theorem run : θ_run defs (onTc (τ := τ) (main (F := Ideal))) ⟨m, fun _ => 0, ρ⟩ fun r => ∀ c : Dev nD,
      r.2.mem ((c.tc : Thread nD τ).loc main_v4) = lookup (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨by
      rw [(h c).2 main_v4 (Pipeline.mem_restRefs_of main_v4 (by decide) (by decide))]
      funext i
      obtain ⟨s, t, e, rfl⟩ : ∃ (s : Fin 64) (t : Fin 4096) (e : Fin 128), i = ix3 s t e := ⟨i 0, i 1, i 2, eq_ix3 i⟩
      have hs := s.isLt
      have ht := t.isLt
      have hr : s.val * 4096 + t.val < 262144 := by omega
      rw [Glue.tail_apply m c s t e, final m c]
      exact rows_eq_lookup m c s t e hr,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c)))⟩)
    (run_main m ρ)

end Cert.KernelIdeal.Result

end
-- ==== Proof.RefRun.lean ====
/-
  The reference program's run, read back as ONE function of its three arguments.

  The reference is a straight line of twenty-seven array operations once its two module-local functions are substituted
  at their calls: the table transposed; the class ids wrapped once (a negative id plus the class count), given a
  trailing unit axis, tested against the bounds `0` and `31999`, the two tests joined and reduced by `and` along
  the unit axis; the rows of the transposed table gathered at the ids; the gathered rows kept where the test holds
  and a fill constant elsewhere; the bias broadcast to the result's shape and added. `taken` is that composition
  as a term of the arguments' contents; `run` says every execution ends with the result buffer at `taken` of the
  launch contents and the three arguments unchanged.
-/
import proofs.«425042_j78675210928791_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-! ## The composed term -/

/-- The class ids, a negative one moved up by the class count: `x < 0 ? x + 32000 : x`. -/
def wrapped (x : IVec S64x4096 32) : IVec S64x4096 32 :=
  select (cmpi .slt x (broadcastInDim S64x4096 ![] bcast_S_S64x4096 (constantI S_ 32 0#32)))
    (addi x (broadcastInDim S64x4096 ![] bcast_S_S64x4096 (constantI S_ 32 32000#32))) x

/-- The wrapped ids as the gather's start indices: a trailing unit axis added. -/
def idx3 (x : IVec S64x4096 32) : IVec S64x4096x1 32 :=
  broadcastInDim S64x4096x1 ![0, 1] bcast_S64x4096_S64x4096x1_0_1 (wrapped x)

/-- Where the start index lies in `[0, 31999]`: the two signed tests joined, reduced by `and` (from `true`) along the
    unit axis. -/
def inBounds (x : IVec S64x4096 32) : IVec S64x4096 1 :=
  Host.reduce IntOp.andi
    (andi (cmpi .sge (idx3 x) (broadcastInDim S64x4096x1 ![] bcast_S_S64x4096x1 (constantI S_ 32 0#32)))
      (cmpi .sle (idx3 x)
        (broadcastInDim S64x4096x1 ![0, 1, 2] bcast_S1x1x1_S64x4096x1_0_1_2
          (broadcastInDim S1x1x1 ![2] bcast_S1_S1x1x1_2 (constantI S1 32 31999#32)))))
    (constantI S_ 1 1#1) reducesTo_S64x4096x1_S64x4096_d2 h_S_

/-- The rows of the transposed table at the start indices. -/
def gathered (x : IVec S64x4096 32) (W : FVec F S128x32000 .f32) : FVec F S64x4096x128 .f32 :=
  Host.gather gather_S32000x128_S64x4096x1_S64x4096x128_2_0_n_n_0_2_1128
    (transpose S32000x128 [1, 0] W transposes_S128x32000_S32000x128_1_0) (idx3 x)

/-- What the reference computes from its arguments' contents: the gathered rows where the index is in bounds, the fill
    constant elsewhere, plus the bias along the last axis. -/
def taken (x : IVec S64x4096 32) (W : FVec F S128x32000 .f32) (b : FVec F S128 .f32) : FVec F S64x4096x128 .f32 :=
  addf
    (select (broadcastInDim S64x4096x128 ![0, 1] bcast_S64x4096_S64x4096x128_0_1 (inBounds x)) (gathered x W)
      (broadcastInDim S64x4096x128 ![] bcast_S_S64x4096x128 (constant S_ .f32 0x7FC00000#32)))
    (broadcastInDim S64x4096x128 ![0, 1, 2] bcast_S1x1x128_S64x4096x128_0_1_2
      (broadcastInDim S1x1x128 ![2] bcast_S128_S1x1x128_2 b))

/-! ## The straight line -/

/-- @main's operations in order, the two module-local functions' bodies written at their calls over the calls' buffers:
    the transpose; the lookup function's twenty-three (among them the select function's one); the bias's two broadcasts
    and the sum. -/
abbrev ops : List (HloOp τ sig (Elt F)) :=
  [ unary main_arg1 main_v0 ((transpose S32000x128 [1, 0] · transposes_S128x32000_S32000x128_1_0) : (⟨S128x32000, .f32⟩ : BufTy).Contents (Elt F) → (⟨S32000x128, .f32⟩ : BufTy).Contents (Elt F)),
    TRef.nullary main_call0.c (constantI S_ 32 0#32),
    TRef.unary main_call0.c main_call0.v0 (broadcastInDim S64x4096 ![] bcast_S_S64x4096),
    TRef.binary (.of main_arg0) main_call0.v0 main_call0.v1 (cmpi .slt),
    TRef.nullary main_call0.c_0 (constantI S_ 32 32000#32),
    TRef.unary main_call0.c_0 main_call0.v2 (broadcastInDim S64x4096 ![] bcast_S_S64x4096),
    TRef.binary (.of main_arg0) main_call0.v2 main_call0.v3 addi,
    TRef.ternary main_call0.v1 main_call0.v3 (.of main_arg0) main_call0.call0.v0 select,
    TRef.unary main_call0.call0.v0 main_call0.v5 (broadcastInDim S64x4096x1 ![0, 1] bcast_S64x4096_S64x4096x1_0_1),
    TRef.nullary main_call0.c_1 (constantI S1 32 31999#32),
    TRef.nullary main_call0.c_2 (constantI S_ 32 0#32),
    TRef.unary main_call0.c_2 main_call0.v6 (broadcastInDim S64x4096x1 ![] bcast_S_S64x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S64x4096x1 ![0, 1, 2] bcast_S1x1x1_S64x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S64x4096x1_S64x4096_d2 h_S_),
    TRef.binary (.of main_v0) main_call0.v5 main_call0.v13 (fun x i => Host.gather gather_S32000x128_S64x4096x1_S64x4096x128_2_0_n_n_0_2_1128 x i),
    TRef.unary main_call0.v12 main_call0.v14 (broadcastInDim S64x4096x128 ![0, 1] bcast_S64x4096_S64x4096x128_0_1),
    TRef.nullary main_call0.cst (constant S_ .f32 0x7FC00000#32),
    TRef.unary main_call0.cst main_call0.v15 (broadcastInDim S64x4096x128 ![] bcast_S_S64x4096x128),
    TRef.ternary main_call0.v14 main_call0.v13 main_call0.v15 main_call0.v16 select,
    unary main_arg2 main_v2 (broadcastInDim S1x1x128 ![2] bcast_S128_S1x1x128_2 : (⟨S128, .f32⟩ : BufTy).Contents (Elt F) → (⟨S1x1x128, .f32⟩ : BufTy).Contents (Elt F)),
    unary main_v2 main_v3 (broadcastInDim S64x4096x128 ![0, 1, 2] bcast_S1x1x128_S64x4096x128_0_1_2 : (⟨S1x1x128, .f32⟩ : BufTy).Contents (Elt F) → (⟨S64x4096x128, .f32⟩ : BufTy).Contents (Elt F)),
    binary main_v1 main_v3 main_v4 (addf : (⟨S64x4096x128, .f32⟩ : BufTy).Contents (Elt F) → (⟨S64x4096x128, .f32⟩ : BufTy).Contents (Elt F) → (⟨S64x4096x128, .f32⟩ : BufTy).Contents (Elt F)) ]

set_option maxRecDepth 1024 in
/-- @main is that straight line: the functions' definitions unfolded at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub ..⟩

/-- Every execution ends with each buffer at the operations' fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather in
set_option maxRecDepth 8192 in
/-- The fold at the result buffer is `taken` of the three arguments' contents: each operation's result at its own
    buffer is its function's value, at any other buffer what was there (the typed references' transports are the
    identity at these literal buffers); the reduction and the gather stay folded. -/
theorem out_eq (V : Valuation τ sig (Elt F)) :
    after ops V (main_v4 : DevRef τ sig)
      = taken (V (main_arg0 : DevRef τ sig)) (V (main_arg1 : DevRef τ sig)) (V (main_arg2 : DevRef τ sig)) := by
  after_results
  simp only [cast_cast, cast_eq]
  unfold taken gathered inBounds idx3 wrapped
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem arg2_eq (V : Valuation τ sig (Elt F)) :
    after ops V (main_arg2 : DevRef τ sig) = V (main_arg2 : DevRef τ sig) := by
  after_results

/-- On every device, for any float values, from any memory with zero counters: every weakly fair execution of @main
    terminates with the result at `taken` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = taken (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (out_eq _), (h c main_arg0).trans (arg0_eq _),
      (h c main_arg1).trans (arg1_eq _), (h c main_arg2).trans (arg2_eq _)⟩)
    (run_ops m ρ)

end Cert.ReferenceIdeal.RefValue

end
-- ==== Proof.RefValue.lean ====
/-
  The reference's composed term is the lookup, where every class id names a class.

  `taken x W b` (the reference's twenty-seven operations as one term) is read at one result index `(s, t, e)`, one
  operation at a time. With every word of `x`, read signed, in `[0, 32000)`: the wrap leaves `x` as it is (no word is
  negative); both bounds tests hold at every start index, so their `and`, reduced along the unit axis from `true`, is
  `true`, and the select keeps the gathered value, never the fill; the gather reads the transposed table at row
  `clamp(x[s, t])` = `x[s, t]` and column `e`, which is `W[e, x[s, t]]`; the bias, broadcast twice, reads `b[e]`; and
  the sum at the ideal values is the extended reals' sum. That is `Cert.Lookup.lookup x W b` at `(s, t, e)`.
-/
import proofs.«425042_j78675210928791_1_alg».proof.Proof.RefRun
import proofs.«425042_j78675210928791_1_alg».proof.Proof.Spec
import Idealize.ShloMosaic.Lib.ValueIdx
import Idealize.ShloMosaic.Lib.ValueLayout
import Idealize.ShloMosaic.Lib.Pipeline.Value
import Idealize.ShloMosaic.Lib.ReduceAll

noncomputable section

namespace Cert.ReferenceIdeal.RefValue

open Cert.ReferenceIdeal Cert.ReferenceIdeal.Gen Idealize.ShloMosaic Idealize.ShloMosaic.ValueIdx

variable {F : FTy → Type} [FloatOps F]

/-! ## The class ids: the wrap, the start indices, the bounds test -/

/-- A word in range is not negative, so the wrap `x < 0 ? x + 32000 : x` returns it. -/
theorem wrapped_apply {x : IVec S64x4096 32} (hx : Cert.Lookup.InRange x) (p : S64x4096.Idx) : wrapped x p = x p := by
  have h0 : IntOp.cmpi .slt (x p) 0#32 = 0#1 := by
    refine eq_zero_of_ne_one fun h => ?_
    have h1 := IntOp.cmpi_slt.mp h
    have h2 := (hx p).1
    rw [show (0#32 : BitVec 32).toInt = 0 from by decide] at h1
    omega
  show Scalar.select (IntOp.cmpi .slt (x p) 0#32) (IntOp.addi (x p) 32000#32) (x p) = x p
  rw [h0, select_zero]

/-- The start index at `(s, t, 0)` is the wrapped id at `(s, t)`: the trailing unit axis is new. -/
theorem idx3_apply (x : IVec S64x4096 32) (s : Fin 64) (t : Fin 4096) (z : Fin 1) :
    idx3 x (ix3 s t z) = wrapped x (ix2 s t) := by
  unfold idx3
  exact broadcastInDim_apply _ _ _ _ _ fun a => match a with | ⟨0, _⟩ => rfl | ⟨1, _⟩ => rfl

/-- An `and` fold over words that are all `true`, from `true`, is `true`. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- Both bounds tests hold at every start index: `0 ≤ x[s, t] ≤ 31999`, read signed. -/
theorem boundsBit_apply {x : IVec S64x4096 32} (hx : Cert.Lookup.InRange x) (i : S64x4096x1.Idx) :
    andi (cmpi .sge (idx3 x) (broadcastInDim S64x4096x1 ![] bcast_S_S64x4096x1 (constantI S_ 32 0#32)))
      (cmpi .sle (idx3 x)
        (broadcastInDim S64x4096x1 ![0, 1, 2] bcast_S1x1x1_S64x4096x1_0_1_2
          (broadcastInDim S1x1x1 ![2] bcast_S1_S1x1x1_2 (constantI S1 32 31999#32)))) i = 1#1 := by
  obtain ⟨s, t, z, rfl⟩ : ∃ s t z, i = ix3 s t z := ⟨i 0, i 1, i 2, eq_ix3 i⟩
  show IntOp.andi (IntOp.cmpi .sge (idx3 x (ix3 s t z)) 0#32) (IntOp.cmpi .sle (idx3 x (ix3 s t z)) 31999#32) = 1#1
  rw [idx3_apply, wrapped_apply hx]
  obtain ⟨h0, h1⟩ := hx (ix2 s t)
  refine IntOp.andi_eq_one.mpr ⟨IntOp.cmpi_sge.mpr ?_, IntOp.cmpi_sle.mpr ?_⟩
  · rw [show (0#32 : BitVec 32).toInt = 0 from by decide]; exact h0
  · rw [show (31999#32 : BitVec 32).toInt = 31999 from by decide]; omega

/-- So the reduced test is `true` at every `(s, t)`. -/
theorem inBounds_apply {x : IVec S64x4096 32} (hx : Cert.Lookup.InRange x) (p : S64x4096.Idx) : inBounds x p = 1#1 := by
  unfold inBounds
  rw [Host.reduce_eq_foldl]
  exact foldl_andi_ones _ (boundsBit_apply hx) _

/-! ## The gather -/

/-- The operand index the gather reads for result index `(s, t, e)`: on the collapsed axis 0 the start index at
    `(s, t, 0)`, read signed and clamped into `[0, 31999]` (no batching and no offset coordinate there); on axis 1
    the offset coordinate `e` (no start index names it). -/
theorem operandIdx_apply (idx : IVec S64x4096x1 32) (s : Fin 64) (t : Fin 4096) (e : Fin 128) :
    gather_S32000x128_S64x4096x1_S64x4096x128_2_0_n_n_0_2_1128.operandIdx (ix3 s t e) idx
      = ix2 (⟨min (idx (ix3 s t 0)).toInt.toNat 31999, by omega⟩ : Fin 32000) e := by
  funext a
  refine Fin.ext ?_
  match a with
  | ⟨0, _⟩ =>
    show gather_S32000x128_S64x4096x1_S64x4096x128_2_0_n_n_0_2_1128.start (ix3 s t e) idx 0
        + gather_S32000x128_S64x4096x1_S64x4096x128_2_0_n_n_0_2_1128.batchCoord (ix3 s t e) 0
        + gather_S32000x128_S64x4096x1_S64x4096x128_2_0_n_n_0_2_1128.offCoord (ix3 s t e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32000x128_S64x4096x1_S64x4096x128_2_0_n_n_0_2_1128.startIndexMap
      from List.mem_singleton.mpr rfl)]
    have hsi : gather_S32000x128_S64x4096x1_S64x4096x128_2_0_n_n_0_2_1128.siIdx (ix3 s t e)
        ⟨List.idxOf (0 : Fin 2) gather_S32000x128_S64x4096x1_S64x4096x128_2_0_n_n_0_2_1128.startIndexMap,
          List.idxOf_lt_length_iff.2 (List.mem_singleton.mpr rfl)⟩ = ix3 s t 0 := by
      funext b; refine Fin.ext ?_
      match b with
      | ⟨0, _⟩ => rfl
      | ⟨1, _⟩ => rfl
      | ⟨2, _⟩ => rfl
    rw [hsi]
    rfl
  | ⟨1, _⟩ =>
    show gather_S32000x128_S64x4096x1_S64x4096x128_2_0_n_n_0_2_1128.start (ix3 s t e) idx 1
        + gather_S32000x128_S64x4096x1_S64x4096x128_2_0_n_n_0_2_1128.batchCoord (ix3 s t e) 1
        + gather_S32000x128_S64x4096x1_S64x4096x128_2_0_n_n_0_2_1128.offCoord (ix3 s t e) 1 = _
    have h1 : (1 : Fin 2) ∉ gather_S32000x128_S64x4096x1_S64x4096x128_2_0_n_n_0_2_1128.startIndexMap :=
      fun h => absurd (List.mem_singleton.mp h) (by decide)
    have h2 : (1 : Fin 2) ∈ gather_S32000x128_S64x4096x1_S64x4096x128_2_0_n_n_0_2_1128.sKept :=
      (GatherDims.mem_sKept _ _).mpr ⟨fun h => absurd (List.mem_singleton.mp h) (by decide), List.not_mem_nil⟩
    rw [GatherDims.batchCoord_eq_zero _ _ _ List.not_mem_nil]
    unfold GatherDims.start GatherDims.offCoord
    rw [dif_neg h1, dif_pos h2]
    simp only [Nat.add_zero, Nat.zero_add]
    rfl

/-- The gathered value at `(s, t, e)`, every id in range: the table's entry `W[e, x[s, t]]`. -/
theorem gathered_apply {x : IVec S64x4096 32} (hx : Cert.Lookup.InRange x) (W : FVec F S128x32000 .f32)
    (s : Fin 64) (t : Fin 4096) (e : Fin 128) :
    gathered x W (ix3 s t e) = W (ix2 e ⟨(x (ix2 s t)).toNat, (Cert.Lookup.toNat_lt_of_inRange hx (ix2 s t)).1⟩) := by
  have hn := Cert.Lookup.toNat_lt_of_inRange hx (ix2 s t)
  show transpose S32000x128 [1, 0] W transposes_S128x32000_S32000x128_1_0
      (gather_S32000x128_S64x4096x1_S64x4096x128_2_0_n_n_0_2_1128.operandIdx (ix3 s t e) (idx3 x)) = _
  rw [operandIdx_apply, transpose_ix2_apply]
  refine congrArg W (congrArg (ix2 e) (Fin.ext ?_))
  show min (idx3 x (ix3 s t 0)).toInt.toNat 31999 = (x (ix2 s t)).toNat
  rw [idx3_apply, wrapped_apply hx, hn.2]
  omega

/-! ## The mask and the bias, broadcast -/

/-- The reduced test broadcast along the last axis reads the test at `(s, t)`. -/
theorem mask_apply (c : IVec S64x4096 1) (s : Fin 64) (t : Fin 4096) (e : Fin 128) :
    broadcastInDim S64x4096x128 ![0, 1] bcast_S64x4096_S64x4096x128_0_1 c (ix3 s t e) = c (ix2 s t) :=
  broadcastInDim_apply _ _ _ _ _ fun a => match a with | ⟨0, _⟩ => rfl | ⟨1, _⟩ => rfl

/-- The bias broadcast to `[1, 1, 128]` and then to the result's shape reads `b[e]`. -/
theorem bias_apply (b : FVec F S128 .f32) (s : Fin 64) (t : Fin 4096) (e : Fin 128) :
    broadcastInDim S64x4096x128 ![0, 1, 2] bcast_S1x1x128_S64x4096x128_0_1_2
      (broadcastInDim S1x1x128 ![2] bcast_S128_S1x1x128_2 b) (ix3 s t e) = b (ix1 e) := by
  refine (broadcastInDim_apply _ _ _ (ix3 s t e) (ix3 (0 : Fin 1) (0 : Fin 1) e)
    fun a => match a with | ⟨0, _⟩ => rfl | ⟨1, _⟩ => rfl | ⟨2, _⟩ => rfl).trans ?_
  exact broadcastInDim_apply _ _ _ _ (ix1 e) fun a => match a with | ⟨0, _⟩ => rfl

/-! ## The reference's term is the lookup -/

/-- With every class id in range, the reference's composed term is the lookup `W[e, x[s, t]] + b[e]`. -/
theorem taken_eq_lookup (x : IVec S64x4096 32) (W : FVec Ideal S128x32000 .f32) (b : FVec Ideal S128 .f32)
    (hx : Cert.Lookup.InRange x) :
    taken (F := Ideal) x W b = Cert.Lookup.lookup x W b := by
  funext i
  obtain ⟨s, t, e, rfl⟩ : ∃ s t e, i = ix3 s t e := ⟨i 0, i 1, i 2, eq_ix3 i⟩
  rw [Cert.Lookup.lookup_apply]
  unfold taken
  rw [addf_apply, select_apply, mask_apply, inBounds_apply hx, select_one, gathered_apply hx, bias_apply]
  unfold Cert.Lookup.column
  rw [dif_pos (Cert.Lookup.toNat_lt_of_inRange hx (ix2 s t)).1]

end Cert.ReferenceIdeal.RefValue

end
-- ==== Proof.PreRange.lean ====
/-
  The precondition, read back: every class id lies in [0, 32000), signed.

  The printed precondition is a conjunction of four `jnp.all`s, each an and-reduction of a rectangle of truth words to
  one word, and the claim says the conjunction is 1. Its last two conjuncts test the ids: `x ≥ 0` and `x < 32000`,
  both signed comparisons against a constant broadcast to the ids' shape. A conjunction of one-bit words that is 1 has
  both operands 1; an and-reduction over all axes that is 1 met a 1 at every index; a signed comparison that is 1 says
  the order of its operands read as integers. At an index `p` this gives `0 ≤ (x p).toInt` and `(x p).toInt < 32000`.
-/
import proofs.«425042_j78675210928791_1_alg».proof.Proof.Gen.Pre_finite_inputs
import proofs.«425042_j78675210928791_1_alg».proof.Proof.Spec
import Idealize.ShloMosaic.Lib.ReduceAll
import Idealize.ShloMosaic.Lib.StableHlo.Predicate

noncomputable section

namespace Cert.Pre_finite_inputs.Range

open Idealize.ShloMosaic Idealize.ShloMosaic.ValueIdx Cert.Pre_finite_inputs Cert.Pre_finite_inputs.Gen

/-- A scalar has one index. -/
instance : Subsingleton S_.Idx := ⟨fun a b => funext fun d => d.elim0⟩

/-- The precondition holds only where every class id, read signed, names one of the 32000 classes. -/
theorem inRange_of_pre {F : FTy → Type} [FloatOps F] (x : IVec S64x4096 32) (W : FVec F S128x32000 .f32) (b : FVec F S128 .f32)
    (h : Cert.Pre_finite_inputs.fn (F := F) x W b = fun _ => 1#1) : Cert.Lookup.InRange x := by
  have e := congrFun h ValueIdx.ix0
  dsimp only [Cert.Pre_finite_inputs.fn, Cert.Pre_finite_inputs.fn_part1] at e
  -- the conjunction, split: its last two conjuncts are the two range tests
  obtain ⟨e12, e15⟩ := IntOp.andi_eq_one.1 e
  obtain ⟨-, e11⟩ := IntOp.andi_eq_one.1 e12
  intro p
  -- each reduction over all axes, at the index `p`
  have hge := Host.reduce_andi_all _ _ _ _ _ e11 p
  have hlt := Host.reduce_andi_all _ _ _ _ _ e15 p
  -- the broadcast constants are the words 0 and 32000 at every index
  have hge' : IntOp.cmpi .sge (x p) (0#32) = 1#1 := hge
  have hlt' : IntOp.cmpi .slt (x p) (32000#32) = 1#1 := hlt
  -- the comparisons order their operands as signed integers
  rw [IntOp.cmpi_sge] at hge'
  rw [IntOp.cmpi_slt] at hlt'
  have h0 : (0#32 : BitVec 32).toInt = 0 := by decide
  have h1 : (32000#32 : BitVec 32).toInt = 32000 := by decide
  rw [h0] at hge'
  rw [h1] at hlt'
  exact ⟨hge', hlt'⟩

end Cert.Pre_finite_inputs.Range

end
-- ==== Proof.lean ====
/-
  An embedding lookup computed two ways.

  Arguments: class ids `x : i32[64, 4096]`, a table `W : f32[128, 32000]` (column `n` is class `n`'s embedding) and a bias
  `b : f32[128]`; every table and bias entry finite, every id in `[0, 32000)`. The result at `(s, t, e)` is
  `W[e, x[s, t]] + b[e]`.

  The kernel computes it as a one-hot matrix product: the ids flattened to 262144 rows, the table transposed (and cast
  to bf16, the identity over the extended reals); on a 512 × 10 grid, point `(i, k)` adds to a [512, 128] accumulator
  the product of the one-hot rows `[x_r = 3200·k + j]` (j < 3200) with rows `3200·k + j` of the transposed table, and
  the last class block writes accumulator + bias. A one-hot row has at most one nonzero entry, so each block's product
  at `(r, e)` is `Wᵀ[x_r, e]` when `x_r` lies in that block and `0` otherwise, and the ten blocks together meet every class
  exactly once: the accumulator ends at `Wᵀ[x_r, e] = W[e, x_r]` (Acc.lean, Result.lean). Only `0 · a = 0`, `1 · a = a`,
  `0 + a = a` and `a + 0 = a` on the extended reals are used; finiteness of the table plays no part.

  The reference gathers row `x[s, t]` of the transposed table — after wrapping negative ids and filling out-of-range
  ones with a quiet NaN, neither of which happens for ids in range — and adds the bias (RefValue.lean). The range
  of the ids is read off the precondition (PreRange.lean).

  The idealization rewrote nothing, so `preserves` is trivial; the three frames are the generated frame
  certificates of the two kernel programs and the reference's run with its result dropped.
-/
import proofs.«425042_j78675210928791_1_alg».proof.Defs
import proofs.«425042_j78675210928791_1_alg».proof.Proof.Gen.Kernel
import proofs.«425042_j78675210928791_1_alg».proof.Proof.Gen.Kernel.Skeleton
import proofs.«425042_j78675210928791_1_alg».proof.Proof.Gen.Kernel.Launch
import proofs.«425042_j78675210928791_1_alg».proof.Proof.Gen.Kernel.Points
import proofs.«425042_j78675210928791_1_alg».proof.Proof.Gen.Kernel.Frame
import proofs.«425042_j78675210928791_1_alg».proof.Proof.Gen.KernelIdeal
import proofs.«425042_j78675210928791_1_alg».proof.Proof.Gen.KernelIdeal.Skeleton
import proofs.«425042_j78675210928791_1_alg».proof.Proof.Gen.KernelIdeal.Launch
import proofs.«425042_j78675210928791_1_alg».proof.Proof.Gen.KernelIdeal.Points
import proofs.«425042_j78675210928791_1_alg».proof.Proof.Gen.KernelIdeal.Frame
import proofs.«425042_j78675210928791_1_alg».proof.Proof.Gen.ReferenceIdeal
import proofs.«425042_j78675210928791_1_alg».proof.Proof.Gen.Pre_finite_inputs
import proofs.«425042_j78675210928791_1_alg».proof.Proof.Result
import proofs.«425042_j78675210928791_1_alg».proof.Proof.RefValue
import proofs.«425042_j78675210928791_1_alg».proof.Proof.PreRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both programs end with the lookup of the (agreeing) arguments: the kernel for any ids, the reference for ids in
    range, which the precondition grants. -/
theorem algebraic : Cert.algebraic_KernelIdeal_ReferenceIdeal := by
  intro m ρ m' ρ' hpre hagree
  refine ⟨fun c => Cert.Lookup.lookup (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2]
  exact Cert.ReferenceIdeal.RefValue.taken_eq_lookup _ _ _
    (Cert.Pre_finite_inputs.Range.inRange_of_pre _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
